-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x64x64 : Shape := ⟨4, ![64, 3, 64, 64]⟩
abbrev S16x30x30x3x64x64 : Shape := ⟨6, ![16, 30, 30, 3, 64, 64]⟩
abbrev S1x14400 : Shape := ⟨2, ![1, 14400]⟩
abbrev S_ : Shape := ⟨0, ![]⟩

class Facts : Prop where
  bcast_S_S64x3x64x64 : S_.BroadcastsInDim S64x3x64x64 (![] : Fin 0 → Fin S64x3x64x64.rank)
  reducesTo_S64x3x64x64_S_d0_1_2_3 : S64x3x64x64.ReducesTo [0, 1, 2, 3] S_
  h_S_ : 0 < S_.numel
  bcast_S_S16x30x30x3x64x64 : S_.BroadcastsInDim S16x30x30x3x64x64 (![] : Fin 0 → Fin S16x30x30x3x64x64.rank)
  reducesTo_S16x30x30x3x64x64_S_d0_1_2_3_4_5 : S16x30x30x3x64x64.ReducesTo [0, 1, 2, 3, 4, 5] S_
  bcast_S_S1x14400 : S_.BroadcastsInDim S1x14400 (![] : Fin 0 → Fin S1x14400.rank)
  reducesTo_S1x14400_S_d0_1 : S1x14400.ReducesTo [0, 1] S_

variable [Facts]

def fn {F : FTy → Type} [FloatOps F] (main_arg0 : FVec F S64x3x64x64 .f32) (main_arg1 : FVec F S16x30x30x3x64x64 .f32) (main_arg2 : FVec F S1x14400 .f32) : IVec S_ 1 :=
  let main_v0 : FVec F S64x3x64x64 .f32 := Host.absf main_arg0
  let main_cst : FVec F S_ .f32 := constant S_ .f32 0x7F800000#32
  let main_v1 : FVec F S64x3x64x64 .f32 := broadcastInDim S64x3x64x64 ![] bcast_S_S64x3x64x64 main_cst
  let main_v2 : IVec S64x3x64x64 1 := cmpf .olt main_v0 main_v1
  let main_c : IVec S_ 1 := constantI S_ 1 1#1
  let main_v3 : IVec S_ 1 := (fun x v => Host.reduce IntOp.andi x v reducesTo_S64x3x64x64_S_d0_1_2_3 h_S_) main_v2 main_c
  let main_v4 : FVec F S16x30x30x3x64x64 .f32 := Host.absf main_arg1
  let main_cst_0 : FVec F S_ .f32 := constant S_ .f32 0x7F800000#32
  let main_v5 : FVec F S16x30x30x3x64x64 .f32 := broadcastInDim S16x30x30x3x64x64 ![] bcast_S_S16x30x30x3x64x64 main_cst_0
  let main_v6 : IVec S16x30x30x3x64x64 1 := cmpf .olt main_v4 main_v5
  let main_c_1 : IVec S_ 1 := constantI S_ 1 1#1
  let main_v7 : IVec S_ 1 := (fun x v => Host.reduce IntOp.andi x v reducesTo_S16x30x30x3x64x64_S_d0_1_2_3_4_5 h_S_) main_v6 main_c_1
  let main_v8 : IVec S_ 1 := andi main_v3 main_v7
  let main_v9 : FVec F S1x14400 .f32 := Host.absf main_arg2
  let main_cst_2 : FVec F S_ .f32 := constant S_ .f32 0x7F800000#32
  let main_v10 : FVec F S1x14400 .f32 := broadcastInDim S1x14400 ![] bcast_S_S1x14400 main_cst_2
  let main_v11 : IVec S1x14400 1 := cmpf .olt main_v9 main_v10
  let main_c_3 : IVec S_ 1 := constantI S_ 1 1#1
  let main_v12 : IVec S_ 1 := (fun x v => Host.reduce IntOp.andi x v reducesTo_S1x14400_S_d0_1 h_S_) main_v11 main_c_3
  let main_v13 : IVec S_ 1 := andi main_v8 main_v12
  main_v13
-- ==== Kernel.lean ====
abbrev S64x3x64x64 : Shape := ⟨4, ![64, 3, 64, 64]⟩
abbrev S16x30x30x3x64x64 : Shape := ⟨6, ![16, 30, 30, 3, 64, 64]⟩
abbrev S1x14400 : Shape := ⟨2, ![1, 14400]⟩
abbrev S64x12288 : Shape := ⟨2, ![64, 12288]⟩
abbrev S14400x12288 : Shape := ⟨2, ![14400, 12288]⟩
abbrev S64x14400 : Shape := ⟨2, ![64, 14400]⟩
abbrev S64x128 : Shape := ⟨2, ![64, 128]⟩
abbrev S14400x128 : Shape := ⟨2, ![14400, 128]⟩
abbrev S64x16x30x30 : Shape := ⟨4, ![64, 16, 30, 30]⟩

abbrev nBuf : Space → Nat
  | .hbm => 7
  | .vmem => 7
  | .smem => 0
  | _ => 0

abbrev bufTy : (tb : Table) → Fin (tcTables nBuf tb) → BufTy
  | .hbm, ⟨0, _⟩ => ⟨S64x3x64x64, .f32⟩
  | .hbm, ⟨1, _⟩ => ⟨S16x30x30x3x64x64, .f32⟩
  | .hbm, ⟨2, _⟩ => ⟨S1x14400, .f32⟩
  | .hbm, ⟨3, _⟩ => ⟨S64x12288, .f32⟩
  | .hbm, ⟨4, _⟩ => ⟨S14400x12288, .f32⟩
  | .hbm, ⟨5, _⟩ => ⟨S64x14400, .f32⟩
  | .hbm, ⟨6, _⟩ => ⟨S64x16x30x30, .f32⟩
  | .local _ .vmem, ⟨0, _⟩ => ⟨S64x128, .f32⟩
  | .local _ .vmem, ⟨1, _⟩ => ⟨S64x128, .f32⟩
  | .local _ .vmem, ⟨2, _⟩ => ⟨S14400x128, .f32⟩
  | .local _ .vmem, ⟨3, _⟩ => ⟨S14400x128, .f32⟩
  | .local _ .vmem, ⟨4, _⟩ => ⟨S1x14400, .f32⟩
  | .local _ .vmem, ⟨5, _⟩ => ⟨S64x14400, .f32⟩
  | .local _ .vmem, ⟨6, _⟩ => ⟨S64x14400, .f32⟩
  | _, _ => ⟨S64x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S14400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x14400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x14400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S64x3x64x64_S64x12288 : S64x3x64x64.ShapeCasts S64x12288
  shapeCasts_S16x30x30x3x64x64_S14400x12288 : S16x30x30x3x64x64.ShapeCasts S14400x12288
  inb_S64x14400_S64x14400_0_0 : ∀ a, (![0, 0] : Fin 2 → Nat) a + S64x14400.size a ≤ S64x14400.size a
  h_S64x14400 : 0 < S64x14400.numel
  shapeCasts_S64x14400_S64x14400 : S64x14400.ShapeCasts S64x14400
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bitsLt_bf16_f32 : FTy.bits .bf16 < FTy.bits .f32
  inb_S14400x128_S14400x128_0_0 : ∀ a, (![0, 0] : Fin 2 → Nat) a + S14400x128.size a ≤ S14400x128.size a
  h_S14400x128 : 0 < S14400x128.numel
  shapeCasts_S14400x128_S14400x128 : S14400x128.ShapeCasts S14400x128
  inb_S1x14400_S1x14400_0_0 : ∀ a, (![0, 0] : Fin 2 → Nat) a + S1x14400.size a ≤ S1x14400.size a
  h_S1x14400 : 0 < S1x14400.numel
  broadcasts_S1x14400_S64x14400 : S1x14400.Broadcasts S64x14400
  shapeCasts_S64x14400_S64x16x30x30 : S64x14400.ShapeCasts S64x16x30x30
  dot_S64x128_S14400x128_S64x14400_1_1_0_0_n_n_wf : DotDims.WF S64x128 S14400x128 S64x14400 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x12288.size a
  hwx0_0 : ∀ i : grid0.Coords, EltTy.bits .f32 = 32 ∨ (Rect.block (s := S64x12288) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S14400x128.size a ≤ S14400x12288.size a
  hwx0_1 : ∀ i : grid0.Coords, EltTy.bits .f32 = 32 ∨ (Rect.block (s := S14400x12288) S14400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x14400.size a ≤ S1x14400.size a
  hwx0_2 : ∀ i : grid0.Coords, EltTy.bits .f32 = 32 ∨ (Rect.block (s := S1x14400) S1x14400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x14400.size a ≤ S64x14400.size a
  hwx0_3 : ∀ i : grid0.Coords, EltTy.bits .f32 = 32 ∨ (Rect.block (s := S64x14400) S64x14400.size (cc0_transform_3 i) (hinb0_3 i)).WholeWords (EltTy.packing .f32)

variable [Facts₀]

def dot_S64x128_S14400x128_S64x14400_1_1_0_0_n_n : DotDims S64x128 S14400x128 S64x14400 where
  lhsContracting := [1]
  rhsContracting := [1]
  lhsNonContracting := [0]
  rhsNonContracting := [0]
  lhsBatch := []
  rhsBatch := []
  wf := dot_S64x128_S14400x128_S64x14400_1_1_0_0_n_n_wf

abbrev win0_0 : Pipeline.Window sig grid0 :=
  Pipeline.Window.ofSpec (Memref.whole main_v0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S14400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x14400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x14400.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x64x64 : Shape := ⟨4, ![64, 3, 64, 64]⟩
abbrev S16x30x30x3x64x64 : Shape := ⟨6, ![16, 30, 30, 3, 64, 64]⟩
abbrev S1x14400 : Shape := ⟨2, ![1, 14400]⟩
abbrev S64x12288 : Shape := ⟨2, ![64, 12288]⟩
abbrev S14400x12288 : Shape := ⟨2, ![14400, 12288]⟩
abbrev S12288x14400 : Shape := ⟨2, ![12288, 14400]⟩
abbrev S64x14400 : Shape := ⟨2, ![64, 14400]⟩
abbrev S64x16x30x30 : Shape := ⟨4, ![64, 16, 30, 30]⟩

abbrev nBuf : Space → Nat
  | .hbm => 10
  | .vmem => 0
  | .smem => 0
  | _ => 0

abbrev bufTy : (tb : Table) → Fin (tcTables nBuf tb) → BufTy
  | .hbm, ⟨0, _⟩ => ⟨S64x3x64x64, .f32⟩
  | .hbm, ⟨1, _⟩ => ⟨S16x30x30x3x64x64, .f32⟩
  | .hbm, ⟨2, _⟩ => ⟨S1x14400, .f32⟩
  | .hbm, ⟨3, _⟩ => ⟨S64x12288, .f32⟩
  | .hbm, ⟨4, _⟩ => ⟨S14400x12288, .f32⟩
  | .hbm, ⟨5, _⟩ => ⟨S12288x14400, .f32⟩
  | .hbm, ⟨6, _⟩ => ⟨S64x14400, .f32⟩
  | .hbm, ⟨7, _⟩ => ⟨S64x14400, .f32⟩
  | .hbm, ⟨8, _⟩ => ⟨S64x14400, .f32⟩
  | .hbm, ⟨9, _⟩ => ⟨S64x16x30x30, .f32⟩
  | _, _ => ⟨S64x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S64x3x64x64_S64x12288 : S64x3x64x64.ShapeCasts S64x12288
  shapeCasts_S16x30x30x3x64x64_S14400x12288 : S16x30x30x3x64x64.ShapeCasts S14400x12288
  transposes_S14400x12288_S12288x14400_1_0 : S14400x12288.Transposes [1, 0] S12288x14400
  bcast_S1x14400_S64x14400_0_1 : S1x14400.BroadcastsInDim S64x14400 (![0, 1] : Fin 2 → Fin S64x14400.rank)
  shapeCasts_S64x14400_S64x16x30x30 : S64x14400.ShapeCasts S64x16x30x30
  dot_S64x12288_S12288x14400_S64x14400_1_0_0_1_n_n_wf : DotDims.WF S64x12288 S12288x14400 S64x14400 [1] [0] [0] [1] [] []

variable [Facts₀]

def dot_S64x12288_S12288x14400_S64x14400_1_0_0_1_n_n : DotDims S64x12288 S12288x14400 S64x14400 where
  lhsContracting := [1]
  rhsContracting := [0]
  lhsNonContracting := [0]
  rhsNonContracting := [1]
  lhsBatch := []
  rhsBatch := []
  wf := dot_S64x12288_S12288x14400_S64x14400_1_0_0_1_n_n_wf

class Facts : Prop extends Facts₀ where

variable [Facts]
-- ==== Proof.Affine.lean ====
/-
  The mathematics both programs compute, with no program in sight: a dense layer `X ↦ X · Wᵀ + b` on extended reals,
  `X` of 64 rows and `W` of 14400 rows, each row 12288 long, `b` one row of 14400 biases spread over the 64 rows.

  The kernel walks the 12288 columns in 96 blocks of 128 and keeps a running sum; the reference contracts all
  12288 at once. The bridge between the two is that a sum over the first `(t + 1) · 128` columns is the sum over the first
  `t · 128` plus block `t`'s 128 products: addition on the extended reals is a commutative monoid, so splitting a
  finite sum into consecutive stretches needs no finiteness of the summands.
-/
import Idealize.ShloMosaic.PureOps.Ideal
import Idealize.ShloMosaic.Lib.ValueIdx
import Mathlib.Algebra.BigOperators.Fin

noncomputable section

namespace Cert.Affine

open Idealize.ShloMosaic Idealize.ShloMosaic.ValueIdx

/-- The activations as a matrix: 64 rows of 12288. -/
abbrev SX : Shape := ⟨2, ![64, 12288]⟩
/-- The weights as a matrix: 14400 rows of 12288 (one row per output feature). -/
abbrev SW : Shape := ⟨2, ![14400, 12288]⟩
/-- The bias: one row of 14400. -/
abbrev SB : Shape := ⟨2, ![1, 14400]⟩
/-- The result: 64 rows of 14400. -/
abbrev SO : Shape := ⟨2, ![64, 14400]⟩

variable (X : FVec Ideal SX .f32) (W : FVec Ideal SW .f32) (b : FVec Ideal SB .f32)

/-- The layer: entry `(p, q)` is the dot product of row `p` of `X` with row `q` of `W`, plus bias `q`. -/
def affine : FVec Ideal SO .f32 :=
  fun j => (∑ k : Fin 12288, X (ix2 (j 0) k) * W (ix2 (j 1) k)) + b (ix2 0 (j 1))

/-- Column `l` of block `t`, as a column of the whole row: `t · 128 + l`. -/
def col (t : Fin 96) (l : Fin 128) : Fin 12288 :=
  ⟨t.val * 128 + l.val, by have := t.isLt; have := l.isLt; omega⟩

theorem col_val (t : Fin 96) (l : Fin 128) : (col t l).val = t.val * 128 + l.val := rfl

/-- The `k`-th product of row `p` of `X` with row `q` of `W`; zero past the rows' end, so that it is a function on ℕ. -/
def prodAt (p : Fin 64) (q : Fin 14400) (k : ℕ) : EReal :=
  if h : k < 12288 then X (ix2 p ⟨k, h⟩) * W (ix2 q ⟨k, h⟩) else 0

/-- The dot product of the two rows over their first `n` columns. -/
def partialDot (n : ℕ) (p : Fin 64) (q : Fin 14400) : EReal :=
  ∑ k ∈ Finset.range n, prodAt X W p q k

/-- Block `t`'s share of the dot product: its 128 products. -/
def blockDot (t : Fin 96) (p : Fin 64) (q : Fin 14400) : EReal :=
  ∑ l : Fin 128, X (ix2 p (col t l)) * W (ix2 q (col t l))

/-- Over no column the dot product is zero. -/
theorem partialDot_zero (p : Fin 64) (q : Fin 14400) : partialDot X W 0 p q = 0 := by
  unfold partialDot; exact Finset.sum_range_zero _

/-- One more block: the dot product over the first `(t + 1) · 128` columns is the one over the first `t · 128` plus
    block `t`'s share. -/
theorem partialDot_block (t : Fin 96) (p : Fin 64) (q : Fin 14400) :
    partialDot X W ((t.val + 1) * 128) p q = partialDot X W (t.val * 128) p q + blockDot X W t p q := by
  unfold partialDot blockDot
  rw [Nat.succ_mul, Finset.sum_range_add, Finset.sum_range (fun l => prodAt X W p q (t.val * 128 + l))]
  refine congrArg (_ + ·) (Finset.sum_congr rfl fun l _ => ?_)
  have ht := t.isLt
  have hl := l.isLt
  unfold prodAt
  rw [dif_pos (show t.val * 128 + l.val < 12288 by omega)]
  rfl

/-- Over all 12288 columns it is the whole dot product. -/
theorem partialDot_full (p : Fin 64) (q : Fin 14400) :
    partialDot X W 12288 p q = ∑ k : Fin 12288, X (ix2 p k) * W (ix2 q k) := by
  unfold partialDot
  rw [Finset.sum_range (fun k => prodAt X W p q k)]
  refine Finset.sum_congr rfl fun k _ => ?_
  unfold prodAt
  rw [dif_pos k.isLt]

/-- So the layer is the dot product over all 96 blocks' columns, plus the bias. -/
theorem affine_apply (p : Fin 64) (q : Fin 14400) :
    affine X W b (ix2 p q) = partialDot X W (96 * 128) p q + b (ix2 0 q) := by
  rw [show (96 * 128 : ℕ) = 12288 from rfl, partialDot_full]
  rfl

end Cert.Affine

end
-- ==== Proof.RefStages.lean ====
/-
  The reference, stage by stage, is the dense layer of Affine.lean.

  jnp computes `x2 @ w2.T + bias`: the flattened weights are transposed, contracted with the flattened activations over
  all 12288 columns, and the bias row is broadcast over the 64 rows and added. Read at entry `(p, q)`: the transpose
  hands the contraction `w2 (q, k)` at `(k, q)`, so the sum is `∑ₖ x2 (p, k) · w2 (q, k)`, and the broadcast reads bias `q`.
  The two flattening reshapes in front and the un-flattening one behind are left closed: the kernel's program has the
  same three.
-/
import proofs.«168715_j51685636440285_1_alg».proof.Proof.Gen.ReferenceIdeal.Run
import proofs.«168715_j51685636440285_1_alg».proof.Proof.Gen.ReferenceIdeal.Read
import proofs.«168715_j51685636440285_1_alg».proof.Proof.Affine

noncomputable section

namespace Cert.ReferenceIdeal.Stages

open Cert.ReferenceIdeal Cert.ReferenceIdeal.Gen Cert.ReferenceIdeal.Read Idealize.ShloMosaic Idealize.ShloMosaic.ValueIdx

/-- The contraction's left operand at `(p, k)`; -/
theorem lidx_eq (j : S64x14400.Idx) (k : Fin 12288) : lidx_main_v3 j k = ix2 (j 0) k :=
  funext fun a => Fin.ext (by match a with | ⟨0, _⟩ => rfl | ⟨1, _⟩ => rfl)

/-- its right operand, through the transpose, at `(q, k)`; -/
theorem ridx_eq (j : S64x14400.Idx) (k : Fin 12288) : idx_main_v2 (ridx_main_v3 j k) = ix2 (j 1) k :=
  funext fun a => Fin.ext (by match a with | ⟨0, _⟩ => rfl | ⟨1, _⟩ => rfl)

/-- the broadcast bias at `(0, q)`. -/
theorem bidx_eq (j : S64x14400.Idx) : idx_main_v4 j = ix2 (0 : Fin 1) (j 1) :=
  funext fun a => Fin.ext (by match a with | ⟨0, _⟩ => rfl | ⟨1, _⟩ => rfl)

/-- The sum before the last reshape is the dense layer of the flattened activations and weights and the bias row. -/
theorem sum_eq_affine (x : (⟨S64x3x64x64, .f32⟩ : BufTy).Contents (Elt Ideal))
    (w : (⟨S16x30x30x3x64x64, .f32⟩ : BufTy).Contents (Elt Ideal)) (b : (⟨S1x14400, .f32⟩ : BufTy).Contents (Elt Ideal)) :
    val_main_v5 (F := Ideal) x w b
      = Cert.Affine.affine (val_main_v0 (F := Ideal) x) (val_main_v1 (F := Ideal) w) b := by
  funext j
  rw [val_main_v5_apply, val_main_v3_apply, val_main_v4_apply]
  simp only [val_main_v2_apply, lidx_eq, ridx_eq, bidx_eq]
  rfl

/-- So the reference's result is that layer, un-flattened. -/
theorem result_eq (x : (⟨S64x3x64x64, .f32⟩ : BufTy).Contents (Elt Ideal))
    (w : (⟨S16x30x30x3x64x64, .f32⟩ : BufTy).Contents (Elt Ideal)) (b : (⟨S1x14400, .f32⟩ : BufTy).Contents (Elt Ideal)) :
    val_main_v6 (F := Ideal) x w b
      = shapeCast S64x16x30x30 (Cert.Affine.affine (shapeCast S64x12288 x shapeCasts_S64x3x64x64_S64x12288)
          (shapeCast S14400x12288 w shapeCasts_S16x30x30x3x64x64_S14400x12288) b) shapeCasts_S64x14400_S64x16x30x30 := by
  unfold val_main_v6
  rw [sum_eq_affine]
  rfl

end Cert.ReferenceIdeal.Stages

end
-- ==== Proof.BodyCases.lean ====
/-
  What one step of the kernel leaves behind, as values.

  The body keeps a running sum in a scratch buffer the size of the whole result. At the first grid point it first
  stores zeros there; at every point it reads the scratch, adds the product of the point's activation block and weight
  block, stores the sum back, reads it again, adds the bias row spread over the rows, and stores that into the output's
  staging buffer. Every load and store goes through the whole buffer at offset zero, so a store leaves exactly its
  payload and a later load reads it back:

    first point    scratch := step (zeros),         output := withBias (step (zeros))
    later points   scratch := step (scratch before), output := withBias (step (scratch before))

  where `step` is the body's accumulate payload and `withBias` its bias payload. The lemmas hold at any float
  instance; the values are read at the extended reals in BodyValue.lean.
-/
import proofs.«168715_j51685636440285_1_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe Idealize.SL.Sem

variable {F : FTy → Type} [FloatOps F]

/-- The zero offsets of every access in the body, however they are spelt. -/
theorem hz : (![0, 0] : Fin 2 → Nat) = fun _ => 0 := funext fun a => by fin_cases a <;> rfl

/-- A load through the whole buffer reads what the LAST store through the whole buffer left, whatever was stored before. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The accumulate step: the scratch's contents `acc` plus the product of the two input blocks. -/
abbrev step (x0 : Vec F S64x128 .f32) (x1 : Vec F S14400x128 .f32) (acc : Vec F S64x14400 .f32) : Vec F S64x14400 .f32 :=
  k0_pay2 x0 x1 acc

/-- The output step: the running sum plus the bias row on every row. -/
abbrev withBias (acc : Vec F S64x14400 .f32) (x2 : Vec F S1x14400 .f32) : Vec F S64x14400 .f32 :=
  k0_pay3 acc x2

/-- The zeros the first point stores into the scratch. -/
abbrev zeros : Vec F S64x14400 .f32 := k0_pay1 (F := F)

/-- A later point leaves in the scratch one accumulate step over what the point before left there; -/
theorem scratch_later (c : Dev nD) (i : grid0.Coords) (a1 : Memref sig .tc .vmem S64x128 .f32) (h1 : a1.IsWhole)
    (a2 : Memref sig .tc .vmem S14400x128 .f32) (h2 : a2.IsWhole) (a3 : Memref sig .tc .vmem S1x14400 .f32) (h3 : a3.IsWhole)
    (a4 : Memref sig .tc .vmem S64x14400 .f32) (h4 : a4.IsWhole) (a5 : Memref sig .tc .vmem S64x14400 .f32) (h5 : a5.IsWhole)
    (hc : ¬cond0_0 i) (x0 : Vec F S64x128 .f32) (x1 : Vec F S14400x128 .f32) (x2 : Vec F S1x14400 .f32) (xs0 : Vec F S64x14400 .f32) :
    sout0_B_0 c i a1 h1 a2 h2 a3 h3 a4 h4 a5 h5 hc x0 x1 x2 xs0 = step x0 x1 xs0 := by
  unfold sout0_B_0
  rw [View.read_writes_eq_canon _ _ _ (scover0_B_0 c i a1 h1 a2 h2 a3 h3 a4 h4 a5 h5 hc x0 x1 x2 xs0)]
  unfold kernelRun0_B
  dsimp only
  sl_unfold_words
  rw [View.canon_unit_zero (S := S64x14400) hz]
  simp only [View.readAt_eq_ld, h1.read_unread, h2.read_unread, h3.read_unread, h5.read_unread,
    View.ld_unit_zero (S := S64x128) hz, View.ld_unit_zero (S := S14400x128) hz, View.ld_unit_zero (S := S1x14400) hz,
    View.ld_unit_zero (S := S64x14400) hz]

/-- and in the output's buffer that sum with the bias added. -/
theorem out_later (c : Dev nD) (i : grid0.Coords) (a1 : Memref sig .tc .vmem S64x128 .f32) (h1 : a1.IsWhole)
    (a2 : Memref sig .tc .vmem S14400x128 .f32) (h2 : a2.IsWhole) (a3 : Memref sig .tc .vmem S1x14400 .f32) (h3 : a3.IsWhole)
    (a4 : Memref sig .tc .vmem S64x14400 .f32) (h4 : a4.IsWhole) (a5 : Memref sig .tc .vmem S64x14400 .f32) (h5 : a5.IsWhole)
    (hc : ¬cond0_0 i) (x0 : Vec F S64x128 .f32) (x1 : Vec F S14400x128 .f32) (x2 : Vec F S1x14400 .f32) (xs0 : Vec F S64x14400 .f32) :
    out0_B_3 c i a1 h1 a2 h2 a3 h3 a4 h4 a5 h5 hc x0 x1 x2 xs0 = withBias (step x0 x1 xs0) x2 := by
  unfold out0_B_3
  rw [View.read_writes_eq_canon _ _ _ (cover0_B_3 c i a1 h1 a2 h2 a3 h3 a4 h4 a5 h5 hc x0 x1 x2 xs0)]
  unfold kernelRun0_B
  dsimp only
  sl_unfold_words
  rw [View.canon_unit_zero (S := S64x14400) hz, readCov_cons_whole (S := S64x14400) _ hz]
  simp only [View.readAt_eq_ld, h1.read_unread, h2.read_unread, h3.read_unread, h5.read_unread,
    View.ld_unit_zero (S := S64x128) hz, View.ld_unit_zero (S := S14400x128) hz, View.ld_unit_zero (S := S1x14400) hz,
    View.ld_unit_zero (S := S64x14400) hz]

/-- The first point leaves in the scratch one accumulate step over the zeros it has just stored; -/
theorem scratch_first (c : Dev nD) (i : grid0.Coords) (a1 : Memref sig .tc .vmem S64x128 .f32) (h1 : a1.IsWhole)
    (a2 : Memref sig .tc .vmem S14400x128 .f32) (h2 : a2.IsWhole) (a3 : Memref sig .tc .vmem S1x14400 .f32) (h3 : a3.IsWhole)
    (a4 : Memref sig .tc .vmem S64x14400 .f32) (h4 : a4.IsWhole) (a5 : Memref sig .tc .vmem S64x14400 .f32) (h5 : a5.IsWhole)
    (hc : cond0_0 i) (x0 : Vec F S64x128 .f32) (x1 : Vec F S14400x128 .f32) (x2 : Vec F S1x14400 .f32) :
    sout0_A_0 c i a1 h1 a2 h2 a3 h3 a4 h4 a5 h5 hc x0 x1 x2 = step x0 x1 zeros := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_cons_unit_zero (S := S64x14400) hz, readCov_cons_whole (S := S64x14400) _ hz]
  simp only [View.readAt_eq_ld, h1.read_unread, h2.read_unread, h3.read_unread, h5.read_unread,
    View.ld_unit_zero (S := S64x128) hz, View.ld_unit_zero (S := S14400x128) hz, View.ld_unit_zero (S := S1x14400) hz,
    View.ld_unit_zero (S := S64x14400) hz]

/-- and in the output's buffer that sum with the bias added. -/
theorem out_first (c : Dev nD) (i : grid0.Coords) (a1 : Memref sig .tc .vmem S64x128 .f32) (h1 : a1.IsWhole)
    (a2 : Memref sig .tc .vmem S14400x128 .f32) (h2 : a2.IsWhole) (a3 : Memref sig .tc .vmem S1x14400 .f32) (h3 : a3.IsWhole)
    (a4 : Memref sig .tc .vmem S64x14400 .f32) (h4 : a4.IsWhole) (a5 : Memref sig .tc .vmem S64x14400 .f32) (h5 : a5.IsWhole)
    (hc : cond0_0 i) (x0 : Vec F S64x128 .f32) (x1 : Vec F S14400x128 .f32) (x2 : Vec F S1x14400 .f32) :
    out0_A_3 c i a1 h1 a2 h2 a3 h3 a4 h4 a5 h5 hc x0 x1 x2 = withBias (step x0 x1 zeros) x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero (S := S64x14400) hz, readCov_cons_whole (S := S64x14400) _ hz,
    readCov_cons_whole (S := S64x14400) _ hz]
  simp only [View.readAt_eq_ld, h1.read_unread, h2.read_unread, h3.read_unread, h5.read_unread,
    View.ld_unit_zero (S := S64x128) hz, View.ld_unit_zero (S := S14400x128) hz, View.ld_unit_zero (S := S1x14400) hz,
    View.ld_unit_zero (S := S64x14400) hz]

end Cert.KernelIdeal.Body

end
-- ==== Proof.Steps.lean ====
/-
  The kernel's grid, point by point.

  Before the region the program flattens the activations to `[64, 12288]` and the weights to `[14400, 12288]`. Point `t` of the
  96 is handed columns `128 t … 128 t + 127` of both (all their rows) and the whole bias row; what the output's buffer and the
  scratch hold after it is one body step over what the point before left (BodyCases.lean), on those blocks.
-/
import proofs.«168715_j51685636440285_1_alg».proof.Proof.BodyCases
import proofs.«168715_j51685636440285_1_alg».proof.Proof.Affine
import Idealize.ShloMosaic.Lib.StableHlo.Run

noncomputable section

namespace Cert.KernelIdeal.Steps

open Cert.KernelIdeal Cert.KernelIdeal.Gen Cert.KernelIdeal.Body
open Idealize.ShloMosaic Idealize.ShloMosaic.TcCoe Idealize.SL.Sem Idealize.ShloMosaic.ValueIdx
open Cert.Affine (col)

variable {F : FTy → Type} [FloatOps F]
variable (m : (ℓ : Loc nD τ sig) → Buf (Elt F) ℓ)

/-! ### The arrays the region finds -/

/-- The flattened activations, -/
abbrev actArr (c : Dev nD) : Vec F S64x12288 .f32 := V m c main_v0
/-- the flattened weights, -/
abbrev wgtArr (c : Dev nD) : Vec F S14400x12288 .f32 := V m c main_v1
/-- and the bias row, as the region finds them. -/
abbrev biasArr (c : Dev nD) : Vec F S1x14400 .f32 := V m c main_arg2

/-- The activations the region finds are the argument, flattened; -/
theorem actArr_eq (c : Dev nD) :
    actArr m c = shapeCast S64x12288 (m ((c.tc : Thread nD τ).loc main_arg0)) shapeCasts_S64x3x64x64_S64x12288 := by
  show StableHlo.after hostOps0 (fun b => m (c, b)) (Proc.devRef .tc main_v0) = _
  after_results
  rfl

/-- the weights likewise; -/
theorem wgtArr_eq (c : Dev nD) :
    wgtArr m c = shapeCast S14400x12288 (m ((c.tc : Thread nD τ).loc main_arg1)) shapeCasts_S16x30x30x3x64x64_S14400x12288 := by
  show StableHlo.after hostOps0 (fun b => m (c, b)) (Proc.devRef .tc main_v1) = _
  after_results
  rfl

/-- the bias row is the argument itself. -/
theorem biasArr_eq (c : Dev nD) : biasArr m c = m ((c.tc : Thread nD τ).loc main_arg2) := V_main_arg2 m c

/-! ### The blocks a point is handed -/

/-- Point `t`'s activation block, -/
abbrev actBlk (c : Dev nD) (t : Fin cfg0.N) : Vec F S64x128 .f32 := iblk m c 0 t
/-- its weight block, -/
abbrev wgtBlk (c : Dev nD) (t : Fin cfg0.N) : Vec F S14400x128 .f32 := iblk m c 1 t
/-- and its bias block. -/
abbrev biasBlk (c : Dev nD) (t : Fin cfg0.N) : Vec F S1x14400 .f32 := iblk m c 2 t

/-- A grid point as one of the 96 column blocks. -/
def blockOf (t : Fin cfg0.N) : Fin 96 := ⟨t.val, lt_of_lt_of_eq t.isLt N_0⟩

theorem blockOf_val (t : Fin cfg0.N) : (blockOf t).val = t.val := rfl

/-- Where the three windows stand at point `t`: the first two at block row 0, block column `t`; the bias at its one block. -/
theorem window_index : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = 0) :=
  (by decide +kernel : ∀ t : Fin grid0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = 0))

/-- Entry `(p, l)` of point `t`'s activation block is entry `(p, 128 t + l)` of the flattened activations; -/
theorem actBlk_apply (c : Dev nD) (t : Fin cfg0.N) (p : Fin 64) (l : Fin 128) :
    actBlk m c t (ix2 p l) = actArr m c (ix2 p (col (blockOf t) l)) := by
  have hi := (window_index t).1
  show iblk m c 0 t (ix2 p l) = _
  unfold iblk
  rw [View.read_apply]
  show V m c main_v0 _ = V m c main_v0 _
  congr 1
  funext a
  apply Fin.ext
  match a with
  | ⟨0, _⟩ => show win0_0.index t 0 * 64 + 1 * p.val = p.val; rw [hi.1]; omega
  | ⟨1, _⟩ => show win0_0.index t 1 * 128 + 1 * l.val = t.val * 128 + l.val; rw [hi.2]; omega

/-- entry `(q, l)` of its weight block is entry `(q, 128 t + l)` of the flattened weights; -/
theorem wgtBlk_apply (c : Dev nD) (t : Fin cfg0.N) (q : Fin 14400) (l : Fin 128) :
    wgtBlk m c t (ix2 q l) = wgtArr m c (ix2 q (col (blockOf t) l)) := by
  have hi := (window_index t).2.1
  show iblk m c 1 t (ix2 q l) = _
  unfold iblk
  rw [View.read_apply]
  show V m c main_v1 _ = V m c main_v1 _
  congr 1
  funext a
  apply Fin.ext
  match a with
  | ⟨0, _⟩ => show win0_1.index t 0 * 14400 + 1 * q.val = q.val; rw [hi.1]; omega
  | ⟨1, _⟩ => show win0_1.index t 1 * 128 + 1 * l.val = t.val * 128 + l.val; rw [hi.2]; omega

/-- its bias block is the bias row. -/
theorem biasBlk_apply (c : Dev nD) (t : Fin cfg0.N) (q : Fin 14400) :
    biasBlk m c t (ix2 (0 : Fin 1) q) = biasArr m c (ix2 (0 : Fin 1) q) := by
  have hi := (window_index t).2.2
  show iblk m c 2 t (ix2 (0 : Fin 1) q) = _
  unfold iblk
  rw [View.read_apply]
  show V m c main_arg2 _ = V m c main_arg2 _
  congr 1
  funext a
  apply Fin.ext
  match a with
  | ⟨0, _⟩ => show win0_2.index t 0 * 1 + 1 * 0 = 0; rw [hi.1]
  | ⟨1, _⟩ => show win0_2.index t 1 * 14400 + 1 * q.val = q.val; rw [hi.2]; omega

/-! ### What each point leaves -/

/-- What the scratch holds after point `n`. -/
abbrev scratchAfter (c : Dev nD) (n : ℕ) (h : n < cfg0.N) : Vec F S64x14400 .f32 := (outsAt0 m c n h).2
/-- What the output's staging buffer holds after point `n`. -/
abbrev outAfter (c : Dev nD) (n : ℕ) (h : n < cfg0.N) : Vec F S64x14400 .f32 := (outsAt0 m c n h).1

/-- After the first point the scratch holds one accumulate step over zeros; -/
theorem scratch_first_eq (c : Dev nD) (t : Fin cfg0.N) (h0 : t.val % 96 = 0) :
    scratchAfter m c t.val t.isLt = step (actBlk m c t) (wgtBlk m c t) zeros := by
  show (outsAt0 m c t.val t.isLt).2 = _
  rw [outsAt0_A m c t h0]
  dsimp only
  exact scratch_first c (grid0.coords t) (ms0_0 t) (hs0_0 t) (ms0_1 t) (hs0_1 t) (ms0_2 t) (hs0_2 t) (ms0_3 t) (hs0_3 t) scM0_0 (Memref.isWhole_whole _)
      ((hcond0_0 t).mpr h0) (iblk m c 0 t) (iblk m c 1 t) (iblk m c 2 t)

/-- and the output's buffer that with the bias. -/
theorem out_first_eq (c : Dev nD) (t : Fin cfg0.N) (h0 : t.val % 96 = 0) :
    outAfter m c t.val t.isLt = withBias (step (actBlk m c t) (wgtBlk m c t) zeros) (biasBlk m c t) := by
  show (outsAt0 m c t.val t.isLt).1 = _
  rw [outsAt0_A m c t h0]
  dsimp only
  exact out_first c (grid0.coords t) (ms0_0 t) (hs0_0 t) (ms0_1 t) (hs0_1 t) (ms0_2 t) (hs0_2 t) (ms0_3 t) (hs0_3 t) scM0_0 (Memref.isWhole_whole _)
      ((hcond0_0 t).mpr h0) (iblk m c 0 t) (iblk m c 1 t) (iblk m c 2 t)

/-- After a later point the scratch holds one accumulate step over what it held after the point before; -/
theorem scratch_later_eq (c : Dev nD) (t : Fin cfg0.N) (h0 : ¬t.val % 96 = 0) :
    scratchAfter m c t.val t.isLt
      = step (actBlk m c t) (wgtBlk m c t) (scratchAfter m c (t.val - 1) (Nat.lt_of_le_of_lt (Nat.sub_le _ _) t.isLt)) := by
  show (outsAt0 m c t.val t.isLt).2 = _
  rw [outsAt0_B m c t h0]
  dsimp only
  exact scratch_later c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) (iblk m c 0 t) (iblk m c 1 t) (iblk m c 2 t)
      (outsAt0 m c (t.val - 1) (Nat.lt_of_le_of_lt (Nat.sub_le _ _) t.isLt)).2

/-- and the output's buffer that with the bias. -/
theorem out_later_eq (c : Dev nD) (t : Fin cfg0.N) (h0 : ¬t.val % 96 = 0) :
    outAfter m c t.val t.isLt
      = withBias (step (actBlk m c t) (wgtBlk m c t) (scratchAfter m c (t.val - 1) (Nat.lt_of_le_of_lt (Nat.sub_le _ _) t.isLt))) (biasBlk m c t) := by
  show (outsAt0 m c t.val t.isLt).1 = _
  rw [outsAt0_B m c t h0]
  dsimp only
  exact out_later c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) (iblk m c 0 t) (iblk m c 1 t) (iblk m c 2 t)
      (outsAt0 m c (t.val - 1) (Nat.lt_of_le_of_lt (Nat.sub_le _ _) t.isLt)).2

/-- At every point the output's buffer ends at the scratch's new contents with the bias. -/
theorem out_eq_withBias (c : Dev nD) (t : Fin cfg0.N) :
    outAfter m c t.val t.isLt = withBias (scratchAfter m c t.val t.isLt) (biasBlk m c t) := by
  by_cases h0 : t.val % 96 = 0
  · rw [out_first_eq m c t h0, scratch_first_eq m c t h0]
  · rw [out_later_eq m c t h0, scratch_later_eq m c t h0]

end Cert.KernelIdeal.Steps

end
-- ==== Proof.BodyValue.lean ====
/-
  The body's two arithmetic steps and its zeros, read at one entry over the extended reals.

  At the ideal instance the casts to bf16 in front of the matrix unit are the identity, the matrix product into a zero
  accumulator is the plain sum of products over the contracted axis, and the bias row is read at the entry's column. The
  product contracts the SECOND axis of both blocks (activations `[64, 128]`, weights `[14400, 128]`), so entry `(p, q)`
  pairs row `p` of the activations with row `q` of the weights:

    step x w acc (p, q)  =  acc (p, q) + ∑ l < 128, x (p, l) · w (q, l)
    withBias acc b (p, q) =  acc (p, q) + b (0, q)
    zeros (p, q)          =  0
-/
import proofs.«168715_j51685636440285_1_alg».proof.Proof.BodyCases
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx

/-! ### The product's operand indices, axis by axis -/

/-- The activations are read at the entry's row, -/
theorem lhs_axis0 (i : S64x14400.Idx) (k : dot_S64x128_S14400x128_S64x14400_1_1_0_0_n_n.contr.Idx) :
    (dot_S64x128_S14400x128_S64x14400_1_1_0_0_n_n.lhsIdx i k 0).val = (i 0).val := by
  unfold DotDims.lhsIdx
  rw [dif_neg (show ¬(0 : Fin S64x128.rank) ∈ dot_S64x128_S14400x128_S64x14400_1_1_0_0_n_n.lhsBatch by decide), dif_pos (show (0 : Fin S64x128.rank) ∈ dot_S64x128_S14400x128_S64x14400_1_1_0_0_n_n.lhsNonContracting by decide)]
  rfl
/-- at the contracted column; -/
theorem lhs_axis1 (i : S64x14400.Idx) (k : dot_S64x128_S14400x128_S64x14400_1_1_0_0_n_n.contr.Idx) :
    (dot_S64x128_S14400x128_S64x14400_1_1_0_0_n_n.lhsIdx i k 1).val = (k ⟨0, by decide⟩).val :=
  dot_S64x128_S14400x128_S64x14400_1_1_0_0_n_n.lhsIdx_val_of_single rfl i k
/-- the weights at the entry's COLUMN as their row, -/
theorem rhs_axis0 (i : S64x14400.Idx) (k : dot_S64x128_S14400x128_S64x14400_1_1_0_0_n_n.contr.Idx) :
    (dot_S64x128_S14400x128_S64x14400_1_1_0_0_n_n.rhsIdx i k 0).val = (i 1).val := by
  unfold DotDims.rhsIdx
  rw [dif_neg (show ¬(0 : Fin S14400x128.rank) ∈ dot_S64x128_S14400x128_S64x14400_1_1_0_0_n_n.rhsBatch by decide), dif_pos (show (0 : Fin S14400x128.rank) ∈ dot_S64x128_S14400x128_S64x14400_1_1_0_0_n_n.rhsNonContracting by decide)]
  rfl
/-- at the contracted column. -/
theorem rhs_axis1 (i : S64x14400.Idx) (k : dot_S64x128_S14400x128_S64x14400_1_1_0_0_n_n.contr.Idx) :
    (dot_S64x128_S14400x128_S64x14400_1_1_0_0_n_n.rhsIdx i k 1).val = (k ⟨0, by decide⟩).val :=
  dot_S64x128_S14400x128_S64x14400_1_1_0_0_n_n.rhsIdx_val_of_single rfl i k

/-! ### The three payloads at an entry -/

/-- The zeros are zero. -/
theorem zeros_apply (j : S64x14400.Idx) : zeros (F := Ideal) j = 0 := by
  unfold zeros k0_pay1
  simp only [shapeCast_self]
  exact Ideal.ofBits_zero_f32

/-- One accumulate step at `(p, q)`: what was there, plus the 128 products of row `p` of the activation block with row `q` of the
    weight block. -/
theorem step_apply (x0 : Vec Ideal S64x128 .f32) (x1 : Vec Ideal S14400x128 .f32) (acc : Vec Ideal S64x14400 .f32)
    (p : Fin 64) (q : Fin 14400) :
    step x0 x1 acc (ix2 p q) = acc (ix2 p q) + ∑ l : Fin 128, x0 (ix2 p l) * x1 (ix2 q l) := by
  unfold step k0_pay2
  simp only [shapeCast_self]
  rw [addf_apply]
  refine congrArg (acc (ix2 p q) + ·) ?_
  simp only [matmul]
  rw [Ideal.matmul_constant_zero_apply, ← Equiv.sum_comp (contrEquiv1 dot_S64x128_S14400x128_S64x14400_1_1_0_0_n_n 128 rfl rfl).symm]
  refine Finset.sum_congr rfl fun l _ => ?_
  have hk := contrEquiv1_symm_val dot_S64x128_S14400x128_S64x14400_1_1_0_0_n_n 128 rfl rfl l
  have el : dot_S64x128_S14400x128_S64x14400_1_1_0_0_n_n.lhsIdx (ix2 p q) ((contrEquiv1 dot_S64x128_S14400x128_S64x14400_1_1_0_0_n_n 128 rfl rfl).symm l) = ix2 p l := funext fun a => Fin.ext (by
    match a with
    | ⟨0, _⟩ => exact lhs_axis0 _ _
    | ⟨1, _⟩ => exact (lhs_axis1 _ _).trans hk)
  have er : dot_S64x128_S14400x128_S64x14400_1_1_0_0_n_n.rhsIdx (ix2 p q) ((contrEquiv1 dot_S64x128_S14400x128_S64x14400_1_1_0_0_n_n 128 rfl rfl).symm l) = ix2 q l := funext fun a => Fin.ext (by
    match a with
    | ⟨0, _⟩ => exact rhs_axis0 _ _
    | ⟨1, _⟩ => exact (rhs_axis1 _ _).trans hk)
  rw [el, er]
  rfl

/-- The output step at `(p, q)`: the running sum there plus bias `q`. -/
theorem withBias_apply (acc : Vec Ideal S64x14400 .f32) (x2 : Vec Ideal S1x14400 .f32) (p : Fin 64) (q : Fin 14400) :
    withBias acc x2 (ix2 p q) = acc (ix2 p q) + x2 (ix2 (0 : Fin 1) q) := by
  unfold withBias k0_pay3
  rw [addf_apply]
  refine congrArg (acc (ix2 p q) + ·) ?_
  exact broadcastTo_apply x2 broadcasts_S1x14400_S64x14400 (ix2 p q) (ix2 (0 : Fin 1) q) (fun a => match a with
    | ⟨0, _⟩ => by show 0 = if (1 : Nat) = 1 then 0 else p.val; rw [if_pos rfl]
    | ⟨1, _⟩ => by show q.val = if (14400 : Nat) = 1 then 0 else q.val; rw [if_neg (by decide)])

end Cert.KernelIdeal.Body

end
-- ==== Proof.RunningSum.lean ====
/-
  The scratch is a running dot product, and after the last point the output's buffer is the dense layer.

  After point `n` entry `(p, q)` of the scratch is the dot product of row `p` of the flattened activations with row `q` of
  the flattened weights over their first `(n + 1) · 128` columns: the first point starts from zero, every point adds its own 128
  products, and consecutive stretches of a finite sum on the extended reals add up whatever the summands are (no finiteness is
  used). The output's buffer is always the scratch plus the bias, so after point 95 — all `96 · 128 = 12288` columns — it is the
  layer `X · Wᵀ + b`.
-/
import proofs.«168715_j51685636440285_1_alg».proof.Proof.Steps
import proofs.«168715_j51685636440285_1_alg».proof.Proof.BodyValue

noncomputable section

namespace Cert.KernelIdeal.Steps

open Cert.KernelIdeal Cert.KernelIdeal.Gen Cert.KernelIdeal.Body
open Idealize.ShloMosaic Idealize.ShloMosaic.TcCoe Idealize.SL.Sem Idealize.ShloMosaic.ValueIdx
open Cert.Affine (col partialDot blockDot partialDot_block partialDot_zero affine affine_apply)

variable (m : (ℓ : Loc nD τ sig) → Buf (Elt Ideal) ℓ)

/-- The dot products over the column blocks up to and including block `n`. -/
def sumThrough (c : Dev nD) (n : ℕ) : Vec Ideal S64x14400 .f32 :=
  fun j => partialDot (actArr m c) (wgtArr m c) ((n + 1) * 128) (j 0) (j 1)

/-- One accumulate step at point `t` adds block `t`'s share of the dot product. -/
theorem step_adds_block (c : Dev nD) (t : Fin cfg0.N) (acc : Vec Ideal S64x14400 .f32) (p : Fin 64) (q : Fin 14400) :
    step (actBlk m c t) (wgtBlk m c t) acc (ix2 p q)
      = acc (ix2 p q) + blockDot (actArr m c) (wgtArr m c) (blockOf t) p q := by
  rw [step_apply]
  unfold blockDot
  refine congrArg (acc (ix2 p q) + ·) (Finset.sum_congr rfl fun l _ => ?_)
  rw [actBlk_apply, wgtBlk_apply]

/-- THE INVARIANT: after point `n` the scratch holds the dot products over blocks `0 … n` — by induction on the point. -/
theorem scratch_eq (c : Dev nD) : ∀ (n : ℕ) (h : n < cfg0.N), scratchAfter m c n h = sumThrough m c n
  | 0, h => by
    refine (scratch_first_eq m c ⟨0, h⟩ rfl).trans ?_
    funext j
    obtain ⟨p, q, rfl⟩ : ∃ (p : Fin 64) (q : Fin 14400), j = ix2 p q := ⟨j 0, j 1, eq_ix2 j⟩
    rw [step_adds_block, zeros_apply, zero_add]
    refine ((partialDot_block (actArr m c) (wgtArr m c) (blockOf ⟨0, h⟩) p q).trans ?_).symm
    rw [show (blockOf (⟨0, h⟩ : Fin cfg0.N)).val * 128 = 0 from rfl, partialDot_zero, zero_add]
  | n + 1, h => by
    have hN : cfg0.N = 96 := N_0
    have hB : ¬(⟨n + 1, h⟩ : Fin cfg0.N).val % 96 = 0 := by dsimp only; omega
    refine (scratch_later_eq m c ⟨n + 1, h⟩ hB).trans ?_
    funext j
    obtain ⟨p, q, rfl⟩ : ∃ (p : Fin 64) (q : Fin 14400), j = ix2 p q := ⟨j 0, j 1, eq_ix2 j⟩
    rw [step_adds_block]
    have ih : scratchAfter m c ((⟨n + 1, h⟩ : Fin cfg0.N).val - 1) (Nat.lt_of_le_of_lt (Nat.sub_le _ _) (⟨n + 1, h⟩ : Fin cfg0.N).isLt)
        = sumThrough m c n := scratch_eq c n (Nat.lt_of_succ_lt h)
    rw [ih]
    exact (partialDot_block (actArr m c) (wgtArr m c) (blockOf ⟨n + 1, h⟩) p q).symm

/-- The dense layer of the arrays the region finds. -/
def dense (c : Dev nD) : Vec Ideal S64x14400 .f32 := affine (actArr m c) (wgtArr m c) (biasArr m c)

/-- After the last point the output's staging buffer holds the dense layer. -/
theorem out_last (c : Dev nD) (t : Fin cfg0.N) (h95 : t.val = 95) : outAfter m c t.val t.isLt = dense m c := by
  rw [out_eq_withBias, scratch_eq]
  funext j
  obtain ⟨p, q, rfl⟩ : ∃ (p : Fin 64) (q : Fin 14400), j = ix2 p q := ⟨j 0, j 1, eq_ix2 j⟩
  rw [withBias_apply, biasBlk_apply]
  unfold dense
  rw [affine_apply]
  unfold sumThrough
  rw [h95]

end Cert.KernelIdeal.Steps

end
-- ==== Proof.Result.lean ====
/-
  The kernel's program, run and read: its result is the dense layer, un-flattened.

  The output window's one block is the whole `[64, 14400]` array and is written back once, after the last grid point, when
  its staging buffer holds the dense layer (RunningSum.lean); the reshape after the region un-flattens that to
  `[64, 16, 30, 30]`. The arguments end as they began.
-/
import proofs.«168715_j51685636440285_1_alg».proof.Proof.RunningSum

noncomputable section

namespace Cert.KernelIdeal.Result

open Cert.KernelIdeal Cert.KernelIdeal.Gen Cert.KernelIdeal.Steps
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The last grid point. -/
abbrev tLast : Fin cfg0.N := ⟨95, by rw [show cfg0.N = 96 from N_0]; decide⟩

/-- The output window's block never moves from block (0, 0), and is the whole array. -/
theorem out_window : ∀ t : Fin cfg0.N,
    (win0_3.index t (0 : Fin 2) = 0 ∧ win0_3.index t (1 : Fin 2) = 0)
    ∧ (win0_3.xsize (grid0.coords t) (0 : Fin 2) = 64 ∧ win0_3.xsize (grid0.coords t) (1 : Fin 2) = 14400) :=
  (by decide +kernel : ∀ t : Fin grid0.N,
    (win0_3.index t (0 : Fin 2) = 0 ∧ win0_3.index t (1 : Fin 2) = 0)
    ∧ (win0_3.xsize (grid0.coords t) (0 : Fin 2) = 64 ∧ win0_3.xsize (grid0.coords t) (1 : Fin 2) = 14400))

/-- The dense layer as contents of the region's result array. -/
abbrev layer (c : Dev nD) : Buf (Elt Ideal) ((c : Thread nD τ).loc main_v2) := dense m c

/-- The one write-back, after point 95, writes the dense layer: block (0, 0) read through zero offsets is the array. -/
theorem flushed_eq (c : Dev nD) (t : Fin cfg0.N) (hf : (cfg0.win 3).flush t = true) :
    (dats m 0 c).flushed 3 t = ((cfg0.win 3).blk t).view.read (Elt Ideal) (layer m c) := by
  have hN : cfg0.N = 96 := N_0
  have h95 : t.val = 95 := by have := (flush0_3 t).mp hf; have := t.isLt; omega
  obtain rfl : t = tLast := Fin.ext h95
  show (cfg0.win 3).cut (grid0.coords tLast) ((dats m 0 c).after 3 tLast) = _
  rw [after0_3, show (outsAt0 m c (tLast).val (tLast).isLt).1 = dense m c from out_last m c tLast rfl]
  have hz' : (fun a => win0_3.index tLast a * main_v2.ty.shape.size a) = fun _ => 0 := funext fun a => by
    match a with
    | ⟨0, _⟩ => show win0_3.index tLast 0 * 64 = 0; rw [(out_window tLast).1.1]
    | ⟨1, _⟩ => show win0_3.index tLast 1 * 14400 = 0; rw [(out_window tLast).1.2]
  exact (Memref.read_access_unit_zero (Elt Ideal) main_v2 hz' (fun a => by rw [congrFun hz' a]; simp) (layer m c)).symm

/-- So the region's result array ends holding the dense layer: the last point's block covers it. -/
theorem final (c : Dev nD) : (dats m 0 c).arrAt 3 cfg0.N = layer m c :=
  (dats m 0 c).arrAt_eq_of_cover 3 (layer m c) (flushed_eq m c) fun i =>
    ⟨tLast, (flush0_3 tLast).mpr rfl, by
      show i ∈ ((View.whole main_v2).slice (win0_3.rect tLast)).set
      rw [View.set_slice_whole, Rect.mem_set_unit]
      intro a
      have h0 : (i 0 : Nat) < 64 := (i 0).isLt
      have h1 : (i 1 : Nat) < 14400 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [(out_window tLast).1.1, (out_window tLast).2.1]; omega
      | ⟨1, _⟩ => show win0_3.index tLast 1 * win0_3.size 1 ≤ (i 1 : Nat) ∧ (i 1 : Nat) < win0_3.index tLast 1 * win0_3.size 1 + win0_3.xsize (grid0.coords tLast) 1
                  rw [(out_window tLast).1.2, (out_window tLast).2.2]; omega⟩

/-- The reshape after the region un-flattens what the region left in its result array. -/
theorem tail_eq (c : Dev nD) :
    Pipeline.afterTail₀ cfgs (dats m) 0 (V0 m) [hostOps1] c main_v3
      = shapeCast S64x16x30x30 (layer m c) shapeCasts_S64x14400_S64x16x30x30 := by
  unfold Pipeline.afterTail₀
  show StableHlo.after hostOps1 _ (Proc.devRef .tc main_v3) = _
  after_results
  exact congrArg (fun v => shapeCast S64x16x30x30 v shapeCasts_S64x14400_S64x16x30x30)
    ((Pipeline.withArrays_arr spec0 launch0.win.arr_inj c _ _ 3).trans (final m c))

/-- THE RUN, READ: every weakly fair execution of the kernel's program terminates with the result at the dense layer of the
    flattened arguments, un-flattened, and the three arguments unchanged. -/
theorem run : θ_run defs (onTc (τ := τ) (main (F := Ideal))) ⟨m, fun _ => 0, ρ⟩ fun r => ∀ c : Dev nD,
      r.2.mem ((c.tc : Thread nD τ).loc main_v3)
        = shapeCast S64x16x30x30 (Cert.Affine.affine
            (shapeCast S64x12288 (m ((c.tc : Thread nD τ).loc main_arg0)) shapeCasts_S64x3x64x64_S64x12288)
            (shapeCast S14400x12288 (m ((c.tc : Thread nD τ).loc main_arg1)) shapeCasts_S16x30x30x3x64x64_S14400x12288)
            (m ((c.tc : Thread nD τ).loc main_arg2))) shapeCasts_S64x14400_S64x16x30x30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v3 (Pipeline.mem_restRefs_of main_v3 (by decide) (by decide))).trans (tail_eq m c)).trans (by
        show shapeCast S64x16x30x30 (Cert.Affine.affine (actArr m c) (wgtArr m c) (biasArr m c)) _ = _
        rw [actArr_eq, wgtArr_eq, biasArr_eq]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Result

end
-- ==== Proof.lean ====
/-
  A 5×5 stride-2 convolution written as one dense layer, against its jnp reference — equal over the extended reals.

  Both programs flatten the activations `x : [64, 3, 64, 64]` to `X : [64, 12288]` and the structured-sparse weights
  `w : [16, 30, 30, 3, 64, 64]` to `W : [14400, 12288]`, compute `X · Wᵀ + b` with the bias row `b : [1, 14400]` spread over
  the 64 rows, and un-flatten the `[64, 14400]` result to `[64, 16, 30, 30]`.

  The reference contracts all 12288 columns in one `dot_general` (through a transpose of `W`) and adds the broadcast bias.
  The kernel walks the columns in 96 blocks of 128 on a one-axis grid: a scratch buffer the size of the result is zeroed at
  the first point and gains each point's block product; the output's buffer is rewritten at every point with scratch + bias
  and written back once, after the last point. Its casts to bf16 before the matrix unit are the identity at the ideal
  instance, and the matrix product into a zero accumulator is the plain sum of products, so after point `n` the scratch
  holds the dot products over the first `(n + 1) · 128` columns, and after point 95 the output is `X · Wᵀ + b`. The only law used is
  that consecutive stretches of a finite sum add up, which holds on the extended reals without any finiteness: the
  precondition is never opened.

    Affine.lean      the layer and the stretch-by-stretch sum, no program in sight
    RefStages.lean   the reference's stages are that layer
    BodyCases.lean   what one run of the body leaves in the scratch and the output's buffer, in each of its two cases
    BodyValue.lean   the body's payloads read at an entry
    Steps.lean       the arrays the region finds, the blocks a point is handed, what each point leaves
    RunningSum.lean  the invariant over the grid points, and the output after the last one
    Result.lean      the kernel's run read: its result array and the reshape behind it

  The three frames are the generated ones (the reference's is its generated run with the result dropped); the ideal pass
  rewrote nothing, so the kernel's idealization is its own text.
-/
import proofs.«168715_j51685636440285_1_alg».proof.Defs
import proofs.«168715_j51685636440285_1_alg».proof.Proof.Gen.Kernel
import proofs.«168715_j51685636440285_1_alg».proof.Proof.Gen.Kernel.Skeleton
import proofs.«168715_j51685636440285_1_alg».proof.Proof.Gen.Kernel.Launch
import proofs.«168715_j51685636440285_1_alg».proof.Proof.Gen.Kernel.Points
import proofs.«168715_j51685636440285_1_alg».proof.Proof.Gen.Kernel.Frame
import proofs.«168715_j51685636440285_1_alg».proof.Proof.Gen.KernelIdeal
import proofs.«168715_j51685636440285_1_alg».proof.Proof.Gen.KernelIdeal.Skeleton
import proofs.«168715_j51685636440285_1_alg».proof.Proof.Gen.KernelIdeal.Launch
import proofs.«168715_j51685636440285_1_alg».proof.Proof.Gen.KernelIdeal.Points
import proofs.«168715_j51685636440285_1_alg».proof.Proof.Gen.KernelIdeal.Frame
import proofs.«168715_j51685636440285_1_alg».proof.Proof.Gen.ReferenceIdeal
import proofs.«168715_j51685636440285_1_alg».proof.Proof.Gen.ReferenceIdeal.Run
import proofs.«168715_j51685636440285_1_alg».proof.Proof.Gen.ReferenceIdeal.Read
import proofs.«168715_j51685636440285_1_alg».proof.Proof.Gen.Pre_finite_inputs
import proofs.«168715_j51685636440285_1_alg».proof.Proof.RefStages
import proofs.«168715_j51685636440285_1_alg».proof.Proof.Result
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance both programs end at the dense layer of the flattened arguments, un-flattened: the kernel by its
    running sum over the 96 column blocks, the reference by its one contraction. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Stages.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
